-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x48 : Shape := ⟨2, ![200000, 48]⟩
abbrev S125x64x64 : Shape := ⟨3, ![125, 64, 64]⟩
abbrev S27x150000 : Shape := ⟨2, ![27, 150000]⟩
abbrev S_ : Shape := ⟨0, ![]⟩

class Facts : Prop where
  bcast_S_S200000x48 : S_.BroadcastsInDim S200000x48 (![] : Fin 0 → Fin S200000x48.rank)
  reducesTo_S200000x48_S_d0_1 : S200000x48.ReducesTo [0, 1] S_
  h_S_ : 0 < S_.numel
  bcast_S_S125x64x64 : S_.BroadcastsInDim S125x64x64 (![] : Fin 0 → Fin S125x64x64.rank)
  reducesTo_S125x64x64_S_d0_1_2 : S125x64x64.ReducesTo [0, 1, 2] S_

variable [Facts]

def fn {F : FTy → Type} [FloatOps F] (main_arg0 : FVec F S200000x48 .f32) (main_arg1 : FVec F S125x64x64 .f32) (main_arg2 : IVec S27x150000 32) (main_arg3 : IVec S27x150000 32) (main_arg4 : IVec S27x150000 1) : IVec S_ 1 :=
  let main_v0 : FVec F S200000x48 .f32 := Host.absf main_arg0
  let main_cst : FVec F S_ .f32 := constant S_ .f32 0x7F800000#32
  let main_v1 : FVec F S200000x48 .f32 := broadcastInDim S200000x48 ![] bcast_S_S200000x48 main_cst
  let main_v2 : IVec S200000x48 1 := cmpf .olt main_v0 main_v1
  let main_c : IVec S_ 1 := constantI S_ 1 1#1
  let main_v3 : IVec S_ 1 := (fun x v => Host.reduce IntOp.andi x v reducesTo_S200000x48_S_d0_1 h_S_) main_v2 main_c
  let main_v4 : FVec F S125x64x64 .f32 := Host.absf main_arg1
  let main_cst_0 : FVec F S_ .f32 := constant S_ .f32 0x7F800000#32
  let main_v5 : FVec F S125x64x64 .f32 := broadcastInDim S125x64x64 ![] bcast_S_S125x64x64 main_cst_0
  let main_v6 : IVec S125x64x64 1 := cmpf .olt main_v4 main_v5
  let main_c_1 : IVec S_ 1 := constantI S_ 1 1#1
  let main_v7 : IVec S_ 1 := (fun x v => Host.reduce IntOp.andi x v reducesTo_S125x64x64_S_d0_1_2 h_S_) main_v6 main_c_1
  let main_v8 : IVec S_ 1 := andi main_v3 main_v7
  main_v8
-- ==== Kernel.lean ====
abbrev S200000x48 : Shape := ⟨2, ![200000, 48]⟩
abbrev S125x64x64 : Shape := ⟨3, ![125, 64, 64]⟩
abbrev S27x150000 : Shape := ⟨2, ![27, 150000]⟩
abbrev S5x5x5x64x64 : Shape := ⟨5, ![5, 5, 5, 64, 64]⟩
abbrev S3x3x3x48x48 : Shape := ⟨5, ![3, 3, 3, 48, 48]⟩
abbrev S27x48x48 : Shape := ⟨3, ![27, 48, 48]⟩
abbrev S27x150000x1 : Shape := ⟨3, ![27, 150000, 1]⟩
abbrev S_ : Shape := ⟨0, ![]⟩
abbrev S27x150000x48 : Shape := ⟨3, ![27, 150000, 48]⟩
abbrev S1x25000x48 : Shape := ⟨3, ![1, 25000, 48]⟩
abbrev S1x48x48 : Shape := ⟨3, ![1, 48, 48]⟩
abbrev S25000x48 : Shape := ⟨2, ![25000, 48]⟩
abbrev S48x48 : Shape := ⟨2, ![48, 48]⟩
abbrev S4050000 : Shape := ⟨1, ![4050000]⟩
abbrev S4050000x48 : Shape := ⟨2, ![4050000, 48]⟩
abbrev S4050000x1 : Shape := ⟨2, ![4050000, 1]⟩

abbrev nBuf : Space → Nat
  | .hbm => 39
  | .vmem => 6
  | .smem => 0
  | _ => 0

abbrev bufTy : (tb : Table) → Fin (tcTables nBuf tb) → BufTy
  | .hbm, ⟨0, _⟩ => ⟨S200000x48, .f32⟩
  | .hbm, ⟨1, _⟩ => ⟨S125x64x64, .f32⟩
  | .hbm, ⟨2, _⟩ => ⟨S27x150000, .i32⟩
  | .hbm, ⟨3, _⟩ => ⟨S27x150000, .i32⟩
  | .hbm, ⟨4, _⟩ => ⟨S27x150000, .i1⟩
  | .hbm, ⟨5, _⟩ => ⟨S5x5x5x64x64, .f32⟩
  | .hbm, ⟨6, _⟩ => ⟨S3x3x3x48x48, .f32⟩
  | .hbm, ⟨7, _⟩ => ⟨S27x48x48, .f32⟩
  | .hbm, ⟨8, _⟩ => ⟨S27x150000x1, .i1⟩
  | .hbm, ⟨9, _⟩ => ⟨S_, .i32⟩
  | .hbm, ⟨10, _⟩ => ⟨S27x150000, .i32⟩
  | .hbm, ⟨11, _⟩ => ⟨S27x150000, .i1⟩
  | .hbm, ⟨12, _⟩ => ⟨S_, .i32⟩
  | .hbm, ⟨13, _⟩ => ⟨S27x150000, .i32⟩
  | .hbm, ⟨14, _⟩ => ⟨S27x150000, .i32⟩
  | .hbm, ⟨15, _⟩ => ⟨S27x150000, .i32⟩
  | .hbm, ⟨16, _⟩ => ⟨S27x150000x1, .i32⟩
  | .hbm, ⟨17, _⟩ => ⟨S27x150000x48, .f32⟩
  | .hbm, ⟨18, _⟩ => ⟨S_, .f32⟩
  | .hbm, ⟨19, _⟩ => ⟨S_, .f32⟩
  | .hbm, ⟨20, _⟩ => ⟨S27x150000x48, .i1⟩
  | .hbm, ⟨21, _⟩ => ⟨S27x150000x48, .f32⟩
  | .hbm, ⟨22, _⟩ => ⟨S27x150000x48, .f32⟩
  | .hbm, ⟨23, _⟩ => ⟨S27x150000x48, .bf16⟩
  | .hbm, ⟨24, _⟩ => ⟨S27x48x48, .bf16⟩
  | .hbm, ⟨25, _⟩ => ⟨S27x150000x48, .f32⟩
  | .hbm, ⟨26, _⟩ => ⟨S_, .f32⟩
  | .hbm, ⟨27, _⟩ => ⟨S200000x48, .f32⟩
  | .hbm, ⟨28, _⟩ => ⟨S4050000, .i32⟩
  | .hbm, ⟨29, _⟩ => ⟨S4050000x48, .f32⟩
  | .hbm, ⟨30, _⟩ => ⟨S_, .i32⟩
  | .hbm, ⟨31, _⟩ => ⟨S4050000, .i32⟩
  | .hbm, ⟨32, _⟩ => ⟨S4050000, .i1⟩
  | .hbm, ⟨33, _⟩ => ⟨S_, .i32⟩
  | .hbm, ⟨34, _⟩ => ⟨S4050000, .i32⟩
  | .hbm, ⟨35, _⟩ => ⟨S4050000, .i32⟩
  | .hbm, ⟨36, _⟩ => ⟨S4050000, .i32⟩
  | .hbm, ⟨37, _⟩ => ⟨S4050000x1, .i32⟩
  | .hbm, ⟨38, _⟩ => ⟨S200000x48, .f32⟩
  | .local _ .vmem, ⟨0, _⟩ => ⟨S1x25000x48, .bf16⟩
  | .local _ .vmem, ⟨1, _⟩ => ⟨S1x25000x48, .bf16⟩
  | .local _ .vmem, ⟨2, _⟩ => ⟨S1x48x48, .bf16⟩
  | .local _ .vmem, ⟨3, _⟩ => ⟨S1x48x48, .bf16⟩
  | .local _ .vmem, ⟨4, _⟩ => ⟨S1x25000x48, .f32⟩
  | .local _ .vmem, ⟨5, _⟩ => ⟨S1x25000x48, .f32⟩
  | _, _ => ⟨S200000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![27, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x25000x48 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x48x48 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x25000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S125x64x64_S5x5x5x64x64 : S125x64x64.ShapeCasts S5x5x5x64x64
  slices_S5x5x5x64x64_S3x3x3x48x48_1_1_1_0_0 : S5x5x5x64x64.Slices ![1, 1, 1, 0, 0] S3x3x3x48x48
  shapeCasts_S3x3x3x48x48_S27x48x48 : S3x3x3x48x48.ShapeCasts S27x48x48
  bcast_S27x150000_S27x150000x1_0_1 : S27x150000.BroadcastsInDim S27x150000x1 (![0, 1] : Fin 2 → Fin S27x150000x1.rank)
  bcast_S_S27x150000 : S_.BroadcastsInDim S27x150000 (![] : Fin 0 → Fin S27x150000.rank)
  bcast_S27x150000x1_S27x150000x48_0_1_2 : S27x150000x1.BroadcastsInDim S27x150000x48 (![0, 1, 2] : Fin 3 → Fin S27x150000x48.rank)
  bcast_S_S27x150000x48 : S_.BroadcastsInDim S27x150000x48 (![] : Fin 0 → Fin S27x150000x48.rank)
  bitsLt_bf16_f32 : FTy.bits .bf16 < FTy.bits .f32
  inb_S1x25000x48_S1x25000x48_0_0_0 : ∀ a, (![0, 0, 0] : Fin 3 → Nat) a + S1x25000x48.size a ≤ S1x25000x48.size a
  h_S1x25000x48 : 0 < S1x25000x48.numel
  shapeCasts_S1x25000x48_S25000x48 : S1x25000x48.ShapeCasts S25000x48
  inb_S1x48x48_S1x48x48_0_0_0 : ∀ a, (![0, 0, 0] : Fin 3 → Nat) a + S1x48x48.size a ≤ S1x48x48.size a
  h_S1x48x48 : 0 < S1x48x48.numel
  shapeCasts_S1x48x48_S48x48 : S1x48x48.ShapeCasts S48x48
  shapeCasts_S25000x48_S1x25000x48 : S25000x48.ShapeCasts S1x25000x48
  bcast_S_S200000x48 : S_.BroadcastsInDim S200000x48 (![] : Fin 0 → Fin S200000x48.rank)
  shapeCasts_S27x150000_S4050000 : S27x150000.ShapeCasts S4050000
  shapeCasts_S27x150000x48_S4050000x48 : S27x150000x48.ShapeCasts S4050000x48
  bcast_S_S4050000 : S_.BroadcastsInDim S4050000 (![] : Fin 0 → Fin S4050000.rank)
  bcast_S4050000_S4050000x1_0 : S4050000.BroadcastsInDim S4050000x1 (![0] : Fin 1 → Fin S4050000x1.rank)
  gather_S200000x48_S27x150000x1_S27x150000x48_2_0_n_n_0_2_148_wf : GatherDims.WF S200000x48 S27x150000x1 S27x150000x48 [2] [0] [] [0] [] 2 ![1, 48]
  dot_S25000x48_S48x48_S25000x48_1_0_0_1_n_n_wf : DotDims.WF S25000x48 S48x48 S25000x48 [1] [0] [0] [1] [] []
  scatter_S200000x48_S4050000x1_S4050000x48_1_0_0_1_wf : ScatterDims.WF S200000x48 S4050000x1 S4050000x48 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x25000x48.size a ≤ S27x150000x48.size a
  hwx0_0 : ∀ i : grid0.Coords, EltTy.bits .bf16 = 32 ∨ (Rect.block (s := S27x150000x48) S1x25000x48.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x48x48.size a ≤ S27x48x48.size a
  hwx0_1 : ∀ i : grid0.Coords, EltTy.bits .bf16 = 32 ∨ (Rect.block (s := S27x48x48) S1x48x48.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x25000x48.size a ≤ S27x150000x48.size a
  hwx0_2 : ∀ i : grid0.Coords, EltTy.bits .f32 = 32 ∨ (Rect.block (s := S27x150000x48) S1x25000x48.size (cc0_transform_2 i) (hinb0_2 i)).WholeWords (EltTy.packing .f32)

variable [Facts₀]

def gather_S200000x48_S27x150000x1_S27x150000x48_2_0_n_n_0_2_148 : GatherDims S200000x48 S27x150000x1 S27x150000x48 where
  offsetDims := [2]
  collapsedSliceDims := [0]
  operandBatchingDims := []
  startIndicesBatchingDims := []
  startIndexMap := [0]
  indexVectorDim := 2
  sliceSizes := ![1, 48]
  wf := gather_S200000x48_S27x150000x1_S27x150000x48_2_0_n_n_0_2_148_wf
def dot_S25000x48_S48x48_S25000x48_1_0_0_1_n_n : DotDims S25000x48 S48x48 S25000x48 where
  lhsContracting := [1]
  rhsContracting := [0]
  lhsNonContracting := [0]
  rhsNonContracting := [1]
  lhsBatch := []
  rhsBatch := []
  wf := dot_S25000x48_S48x48_S25000x48_1_0_0_1_n_n_wf
def scatter_S200000x48_S4050000x1_S4050000x48_1_0_0_1 : ScatterDims S200000x48 S4050000x1 S4050000x48 where
  updateWindowDims := [1]
  insertedWindowDims := [0]
  scatterDimsToOperandDims := [0]
  indexVectorDim := 1
  wf := scatter_S200000x48_S4050000x1_S4050000x48_1_0_0_1_wf

abbrev win0_0 : Pipeline.Window sig grid0 :=
  Pipeline.Window.ofSpec (Memref.whole main_v12) S1x25000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x48x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x25000x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S200000x48 : Shape := ⟨2, ![200000, 48]⟩
abbrev S125x64x64 : Shape := ⟨3, ![125, 64, 64]⟩
abbrev S27x150000 : Shape := ⟨2, ![27, 150000]⟩
abbrev S5x5x5x64x64 : Shape := ⟨5, ![5, 5, 5, 64, 64]⟩
abbrev S3x3x3x48x48 : Shape := ⟨5, ![3, 3, 3, 48, 48]⟩
abbrev S27x48x48 : Shape := ⟨3, ![27, 48, 48]⟩
abbrev S27x150000x1 : Shape := ⟨3, ![27, 150000, 1]⟩
abbrev S_ : Shape := ⟨0, ![]⟩
abbrev S27x150000x48 : Shape := ⟨3, ![27, 150000, 48]⟩
abbrev S4050000 : Shape := ⟨1, ![4050000]⟩
abbrev S4050000x48 : Shape := ⟨2, ![4050000, 48]⟩
abbrev S4050000x1 : Shape := ⟨2, ![4050000, 1]⟩

abbrev nBuf : Space → Nat
  | .hbm => 37
  | .vmem => 0
  | .smem => 0
  | _ => 0

abbrev bufTy : (tb : Table) → Fin (tcTables nBuf tb) → BufTy
  | .hbm, ⟨0, _⟩ => ⟨S200000x48, .f32⟩
  | .hbm, ⟨1, _⟩ => ⟨S125x64x64, .f32⟩
  | .hbm, ⟨2, _⟩ => ⟨S27x150000, .i32⟩
  | .hbm, ⟨3, _⟩ => ⟨S27x150000, .i32⟩
  | .hbm, ⟨4, _⟩ => ⟨S27x150000, .i1⟩
  | .hbm, ⟨5, _⟩ => ⟨S5x5x5x64x64, .f32⟩
  | .hbm, ⟨6, _⟩ => ⟨S3x3x3x48x48, .f32⟩
  | .hbm, ⟨7, _⟩ => ⟨S27x48x48, .f32⟩
  | .hbm, ⟨8, _⟩ => ⟨S27x150000x1, .i1⟩
  | .hbm, ⟨9, _⟩ => ⟨S_, .i32⟩
  | .hbm, ⟨10, _⟩ => ⟨S27x150000, .i32⟩
  | .hbm, ⟨11, _⟩ => ⟨S27x150000, .i1⟩
  | .hbm, ⟨12, _⟩ => ⟨S_, .i32⟩
  | .hbm, ⟨13, _⟩ => ⟨S27x150000, .i32⟩
  | .hbm, ⟨14, _⟩ => ⟨S27x150000, .i32⟩
  | .hbm, ⟨15, _⟩ => ⟨S27x150000, .i32⟩
  | .hbm, ⟨16, _⟩ => ⟨S27x150000x1, .i32⟩
  | .hbm, ⟨17, _⟩ => ⟨S27x150000x48, .f32⟩
  | .hbm, ⟨18, _⟩ => ⟨S_, .f32⟩
  | .hbm, ⟨19, _⟩ => ⟨S_, .f32⟩
  | .hbm, ⟨20, _⟩ => ⟨S27x150000x48, .i1⟩
  | .hbm, ⟨21, _⟩ => ⟨S27x150000x48, .f32⟩
  | .hbm, ⟨22, _⟩ => ⟨S27x150000x48, .f32⟩
  | .hbm, ⟨23, _⟩ => ⟨S27x150000x48, .f32⟩
  | .hbm, ⟨24, _⟩ => ⟨S_, .f32⟩
  | .hbm, ⟨25, _⟩ => ⟨S200000x48, .f32⟩
  | .hbm, ⟨26, _⟩ => ⟨S4050000, .i32⟩
  | .hbm, ⟨27, _⟩ => ⟨S4050000x48, .f32⟩
  | .hbm, ⟨28, _⟩ => ⟨S_, .i32⟩
  | .hbm, ⟨29, _⟩ => ⟨S4050000, .i32⟩
  | .hbm, ⟨30, _⟩ => ⟨S4050000, .i1⟩
  | .hbm, ⟨31, _⟩ => ⟨S_, .i32⟩
  | .hbm, ⟨32, _⟩ => ⟨S4050000, .i32⟩
  | .hbm, ⟨33, _⟩ => ⟨S4050000, .i32⟩
  | .hbm, ⟨34, _⟩ => ⟨S4050000, .i32⟩
  | .hbm, ⟨35, _⟩ => ⟨S4050000x1, .i32⟩
  | .hbm, ⟨36, _⟩ => ⟨S200000x48, .f32⟩
  | _, _ => ⟨S200000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  shapeCasts_S125x64x64_S5x5x5x64x64 : S125x64x64.ShapeCasts S5x5x5x64x64
  slices_S5x5x5x64x64_S3x3x3x48x48_1_1_1_0_0 : S5x5x5x64x64.Slices ![1, 1, 1, 0, 0] S3x3x3x48x48
  shapeCasts_S3x3x3x48x48_S27x48x48 : S3x3x3x48x48.ShapeCasts S27x48x48
  bcast_S27x150000_S27x150000x1_0_1 : S27x150000.BroadcastsInDim S27x150000x1 (![0, 1] : Fin 2 → Fin S27x150000x1.rank)
  bcast_S_S27x150000 : S_.BroadcastsInDim S27x150000 (![] : Fin 0 → Fin S27x150000.rank)
  bcast_S27x150000x1_S27x150000x48_0_1_2 : S27x150000x1.BroadcastsInDim S27x150000x48 (![0, 1, 2] : Fin 3 → Fin S27x150000x48.rank)
  bcast_S_S27x150000x48 : S_.BroadcastsInDim S27x150000x48 (![] : Fin 0 → Fin S27x150000x48.rank)
  bcast_S_S200000x48 : S_.BroadcastsInDim S200000x48 (![] : Fin 0 → Fin S200000x48.rank)
  shapeCasts_S27x150000_S4050000 : S27x150000.ShapeCasts S4050000
  shapeCasts_S27x150000x48_S4050000x48 : S27x150000x48.ShapeCasts S4050000x48
  bcast_S_S4050000 : S_.BroadcastsInDim S4050000 (![] : Fin 0 → Fin S4050000.rank)
  bcast_S4050000_S4050000x1_0 : S4050000.BroadcastsInDim S4050000x1 (![0] : Fin 1 → Fin S4050000x1.rank)
  gather_S200000x48_S27x150000x1_S27x150000x48_2_0_n_n_0_2_148_wf : GatherDims.WF S200000x48 S27x150000x1 S27x150000x48 [2] [0] [] [0] [] 2 ![1, 48]
  dot_S27x150000x48_S27x48x48_S27x150000x48_2_1_1_2_0_0_wf : DotDims.WF S27x150000x48 S27x48x48 S27x150000x48 [2] [1] [1] [2] [0] [0]
  scatter_S200000x48_S4050000x1_S4050000x48_1_0_0_1_wf : ScatterDims.WF S200000x48 S4050000x1 S4050000x48 [1] [0] [0] 1

variable [Facts₀]

def gather_S200000x48_S27x150000x1_S27x150000x48_2_0_n_n_0_2_148 : GatherDims S200000x48 S27x150000x1 S27x150000x48 where
  offsetDims := [2]
  collapsedSliceDims := [0]
  operandBatchingDims := []
  startIndicesBatchingDims := []
  startIndexMap := [0]
  indexVectorDim := 2
  sliceSizes := ![1, 48]
  wf := gather_S200000x48_S27x150000x1_S27x150000x48_2_0_n_n_0_2_148_wf
def dot_S27x150000x48_S27x48x48_S27x150000x48_2_1_1_2_0_0 : DotDims S27x150000x48 S27x48x48 S27x150000x48 where
  lhsContracting := [2]
  rhsContracting := [1]
  lhsNonContracting := [1]
  rhsNonContracting := [2]
  lhsBatch := [0]
  rhsBatch := [0]
  wf := dot_S27x150000x48_S27x48x48_S27x150000x48_2_1_1_2_0_0_wf
def scatter_S200000x48_S4050000x1_S4050000x48_1_0_0_1 : ScatterDims S200000x48 S4050000x1 S4050000x48 where
  updateWindowDims := [1]
  insertedWindowDims := [0]
  scatterDimsToOperandDims := [0]
  indexVectorDim := 1
  wf := scatter_S200000x48_S4050000x1_S4050000x48_1_0_0_1_wf

class Facts : Prop extends Facts₀ where

variable [Facts]
-- ==== Proof.OffsetProduct.lean ====
/-
  The per-offset product of a sparse 3-D convolution, as one function of two arrays.

  A sparse convolution with 27 kernel offsets first gathers, for every offset `k` and every neighbour pair `m`, the 48
  input channels of the pair's source voxel (zero where the pair is padding), and then multiplies, offset by offset,
  the gathered rows by that offset's 48 × 48 weight matrix:

      P (k, m, o) = Σ_i g (k, m, i) · w (k, i, o).

  `offsetProduct g w` is that array `P`, entry by entry, over the extended reals. Nothing of it depends on how the
  150000 pairs of an offset are cut into tiles, nor on the order in which the 48 products of an entry are added: the
  sum is over a finite index set in a commutative monoid.

  At the ideal values a change of float format is the identity, so rounding the two factors to a narrower format
  before the product changes nothing (`truncf_ideal`).
-/
import Idealize.ShloMosaic.PureOps.Ideal.Laws
import Idealize.ShloMosaic.Lib.ValueIdx

noncomputable section

namespace Cert.SparseConv

open Idealize.ShloMosaic Idealize.ShloMosaic.ValueIdx

/-- `P (k, m, o) = Σ_i g (k, m, i) · w (k, i, o)`: for each offset `k`, the gathered rows times the offset's weights. -/
def offsetProduct {φ₁ φ₂ : FTy} (g : FVec Ideal ⟨3, ![27, 150000, 48]⟩ φ₁) (w : FVec Ideal ⟨3, ![27, 48, 48]⟩ φ₂) :
    FVec Ideal ⟨3, ![27, 150000, 48]⟩ .f32 :=
  fun j => ∑ i : Fin 48, g (ix3 (j 0) (j 1) i) * w (ix3 (j 0) i (j 2))

theorem offsetProduct_apply {φ₁ φ₂ : FTy} (g : FVec Ideal ⟨3, ![27, 150000, 48]⟩ φ₁) (w : FVec Ideal ⟨3, ![27, 48, 48]⟩ φ₂)
    (k : Fin 27) (r : Fin 150000) (o : Fin 48) :
    offsetProduct g w (ix3 k r o) = ∑ i : Fin 48, g (ix3 k r i) * w (ix3 k i o) := rfl

/-- At the ideal values narrowing the float format of an array is the identity. -/
theorem truncf_ideal {s : Shape} {φ : FTy} (ψ : FTy) (x : FVec Ideal s φ) (h : ψ.bits < φ.bits) :
    truncf ψ x h = x := rfl

end Cert.SparseConv

end
-- ==== Proof.Network.lean ====
/-
  The three stages of the sparse convolution, and the reference as their composition.

  Both programs compute
      out = scatterSum out_idx (P),   P (k, m, o) = Σ_i gathered (k, m, i) · offsetWeights (k, i, o),
  where
    * `gathered` is, for each offset `k` and pair `m`, the feature row of voxel `in_idx (k, m)` (a negative index
      counted from the end), or the zero row where the pair's mask bit is clear;
    * `offsetWeights` is the centred 3 × 3 × 3 sub-cube of the stored 5 × 5 × 5 kernel, its first 48 input and 48 output
      channels, flattened to 27 offsets;
    * `scatterSum idx P` starts from the zero array and adds row `(k, m)` of `P`, flattened to 4050000 rows, into
      voxel `out_idx (k, m)` (again a negative index counted from the end).
  The two outer stages are the same text in both programs, so they are named here once, as they are, and never opened:
  only the middle stage differs, and there the reference's batched product is `offsetProduct`, entry by entry
  (`reference_product`).
-/
import proofs.«104234_j21517786153336_1_alg».proof.Proof.Gen.ReferenceIdeal.Read
import proofs.«104234_j21517786153336_1_alg».proof.Proof.OffsetProduct

noncomputable section

namespace Cert.SparseConv

open Idealize.ShloMosaic Idealize.ShloMosaic.ValueIdx
open Cert.ReferenceIdeal Cert.ReferenceIdeal.Gen Cert.ReferenceIdeal.Read

/-- The masked gathered features: `features[in_idx]` where the mask is set, zero elsewhere. -/
def gathered (feats : (⟨S200000x48, .f32⟩ : BufTy).Contents (Elt Ideal))
    (inIdx : (⟨S27x150000, .i32⟩ : BufTy).Contents (Elt Ideal)) (mask : (⟨S27x150000, .i1⟩ : BufTy).Contents (Elt Ideal)) :
    FVec Ideal S27x150000x48 .f32 :=
  val_main_v11 (F := Ideal) feats inIdx mask

/-- The 27 runtime weight matrices cut out of the stored kernel. -/
def offsetWeights (kernel : (⟨S125x64x64, .f32⟩ : BufTy).Contents (Elt Ideal)) : FVec Ideal S27x48x48 .f32 :=
  val_main_v2 (F := Ideal) kernel

/-- The scatter-add of the per-offset partial results into the zero output, by `out_idx`. -/
def scatterSum (outIdx : (⟨S27x150000, .i32⟩ : BufTy).Contents (Elt Ideal)) (P : FVec Ideal S27x150000x48 .f32) :
    FVec Ideal S200000x48 .f32 :=
  Host.scatterAdd (F := Ideal) scatter_S200000x48_S4050000x1_S4050000x48_1_0_0_1 (val_main_v13 (F := Ideal))
    (val_main_v21 (F := Ideal) outIdx) (shapeCast _ P shapeCasts_S27x150000x48_S4050000x48)

/-- The reference's batched product (batch axis the offset, the 48 channels contracted) is the per-offset product. -/
theorem reference_product (feats : (⟨S200000x48, .f32⟩ : BufTy).Contents (Elt Ideal))
    (kernel : (⟨S125x64x64, .f32⟩ : BufTy).Contents (Elt Ideal))
    (inIdx : (⟨S27x150000, .i32⟩ : BufTy).Contents (Elt Ideal)) (mask : (⟨S27x150000, .i1⟩ : BufTy).Contents (Elt Ideal)) :
    val_main_v12 (F := Ideal) feats kernel inIdx mask
      = offsetProduct (φ₁ := .f32) (φ₂ := .f32) (gathered feats inIdx mask) (offsetWeights kernel) := by
  funext j
  obtain ⟨k, r, o, rfl⟩ : ∃ (k : Fin 27) (r : Fin 150000) (o : Fin 48), j = ix3 k r o := ⟨j 0, j 1, j 2, eq_ix3 j⟩
  rw [val_main_v12_apply, offsetProduct_apply]
  refine Finset.sum_congr rfl fun i _ => ?_
  have hl : lidx_main_v12 (ix3 k r o) i = ix3 k r i :=
    funext fun a => Fin.ext (by match a with | ⟨0, _⟩ => rfl | ⟨1, _⟩ => rfl | ⟨2, _⟩ => rfl)
  have hr : ridx_main_v12 (ix3 k r o) i = ix3 k i o :=
    funext fun a => Fin.ext (by match a with | ⟨0, _⟩ => rfl | ⟨1, _⟩ => rfl | ⟨2, _⟩ => rfl)
  rw [hl, hr]
  rfl

/-- The reference's result is the scatter-sum of the per-offset product of the gathered features and the weights. -/
theorem reference_result (feats : (⟨S200000x48, .f32⟩ : BufTy).Contents (Elt Ideal))
    (kernel : (⟨S125x64x64, .f32⟩ : BufTy).Contents (Elt Ideal))
    (inIdx outIdx : (⟨S27x150000, .i32⟩ : BufTy).Contents (Elt Ideal)) (mask : (⟨S27x150000, .i1⟩ : BufTy).Contents (Elt Ideal)) :
    val_main_v22 (F := Ideal) feats kernel inIdx outIdx mask
      = scatterSum outIdx (offsetProduct (φ₁ := .f32) (φ₂ := .f32) (gathered feats inIdx mask) (offsetWeights kernel)) := by
  unfold val_main_v22 val_main_v15
  rw [reference_product]
  rfl

end Cert.SparseConv

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.BodyProduct.lean ====
/-
  What one run of the kernel body stores, entry by entry.

  The body sees one tile: a 1 × 25000 × 48 block `x` of gathered rows and the 1 × 48 × 48 block `y` of one offset's
  weights. It drops the leading unit axis of both, multiplies 25000 × 48 by 48 × 48 into a zero accumulator, and puts
  the unit axis back. So the stored block is, at `(0, r, o)`,

      Σ_i x (0, r, i) · y (0, i, o).
-/
import proofs.«104234_j21517786153336_1_alg».proof.Proof.Gen.KernelIdeal.Skeleton
import proofs.«104234_j21517786153336_1_alg».proof.Proof.LibDot
import Idealize.ShloMosaic.Lib.Pipeline.Value

noncomputable section

namespace Cert.KernelIdeal.Body

open Idealize.ShloMosaic Idealize.ShloMosaic.ValueIdx Cert.KernelIdeal Cert.KernelIdeal.Gen

/-- The body's product contracts the row's 48 channels against the weight's 48 rows, with no batch axis. -/
theorem dims_plain : dot_S25000x48_S48x48_S25000x48_1_0_0_1_n_n = DotDims.plain 25000 48 48 := rfl

/-- The stored block at `(z, r, o)` (the leading coordinate `z` can only be `0`): row `r` of the tile against column `o`
    of the weights. -/
theorem stored_apply (x : Vec Ideal S1x25000x48 .bf16) (y : Vec Ideal S1x48x48 .bf16)
    (z : Fin 1) (r : Fin 25000) (o : Fin 48) :
    k0_pay1 (F := Ideal) x y (ix3 z r o)
      = ∑ i : Fin 48, x (ix3 (0 : Fin 1) r i) * y (ix3 (0 : Fin 1) i o) := by
  unfold k0_pay1
  rw [shapeCast_addUnit_apply ![25000, 48]]
  have hj : (fun a : Fin 2 => (ix3 z r o : S1x25000x48.Idx) a.succ) = ix2 r o :=
    funext fun a => by match a with | ⟨0, _⟩ => rfl | ⟨1, _⟩ => rfl
  rw [hj, dims_plain]
  simp only [matmul]
  refine (Cert.GNN.matmul_plain_zero_apply none _ _ r o).trans ?_
  refine Finset.sum_congr rfl fun i _ => ?_
  rw [shapeCast_dropUnit_apply ![25000, 48], shapeCast_dropUnit_apply ![48, 48]]
  have hx : (Fin.cons ⟨0, Nat.one_pos⟩ (ix2 r i) : S1x25000x48.Idx) = ix3 (0 : Fin 1) r i :=
    funext fun a => by match a with | ⟨0, _⟩ => rfl | ⟨1, _⟩ => rfl | ⟨2, _⟩ => rfl
  have hy : (Fin.cons ⟨0, Nat.one_pos⟩ (ix2 i o) : S1x48x48.Idx) = ix3 (0 : Fin 1) i o :=
    funext fun a => by match a with | ⟨0, _⟩ => rfl | ⟨1, _⟩ => rfl | ⟨2, _⟩ => rfl
  rw [hx, hy]

end Cert.KernelIdeal.Body

end
-- ==== Proof.KernelArray.lean ====
/-
  The array the pallas_call leaves: the per-offset product of the two arrays it stages.

  The grid has 27 × 6 points. Point `(k, b)` stages rows `25000·b … 25000·b + 24999` of offset `k`'s gathered features,
  and offset `k`'s whole weight matrix, and writes back the same rows of offset `k` of the result. The body stores the
  tile's rows against the weights (BodyProduct), an entry of the product depends only on its own row and on the
  weights of its own offset, so what point `(k, b)` writes back is exactly the tile `(k, b)` of the whole product
  `offsetProduct` of the two staged arrays. The 162 tiles cover the 27 × 150000 × 48 result (row `r` of offset `k` lies
  in tile `(k, r / 25000)`), hence the array ends holding that product, everywhere.
-/
import proofs.«104234_j21517786153336_1_alg».proof.Proof.Gen.KernelIdeal.Frame
import proofs.«104234_j21517786153336_1_alg».proof.Proof.BodyProduct
import proofs.«104234_j21517786153336_1_alg».proof.Proof.OffsetProduct
import Idealize.ShloMosaic.Lib.Pipeline.Value

set_option maxRecDepth 16384

noncomputable section

namespace Cert.KernelIdeal.Partials

open Idealize.ShloMosaic Idealize.ShloMosaic.TcCoe Idealize.ShloMosaic.ValueIdx Idealize.SL.Sem
open Cert.KernelIdeal Cert.KernelIdeal.Gen Cert.SparseConv

variable (m : (ℓ : Loc nD τ sig) → Buf (Elt Ideal) ℓ)

theorem zero_offsets : (![0, 0, 0] : Fin 3 → Nat) = fun _ => 0 := funext fun a => by fin_cases a <;> rfl

/-- The gathered (masked, narrowed) features and the narrowed weights, as the region finds them. -/
abbrev feats (c : Dev nD) : FVec Ideal S27x150000x48 .bf16 := V m c main_v12
abbrev weights (c : Dev nD) : FVec Ideal S27x48x48 .bf16 := V m c main_v13

/-- The whole per-offset product of the staged arrays. -/
abbrev product (c : Dev nD) : FVec Ideal S27x150000x48 .f32 :=
  offsetProduct (φ₁ := .bf16) (φ₂ := .bf16) (feats m c) (weights m c)

/-- The tile of features and the weight block that point `t` stages, at their literal types. -/
abbrev featTile (c : Dev nD) (t : Fin cfg0.N) : Vec Ideal S1x25000x48 .bf16 := iblk m c 0 t
abbrev weightTile (c : Dev nD) (t : Fin cfg0.N) : Vec Ideal S1x48x48 .bf16 := iblk m c 1 t

/-- Where the three windows sit at a point: the features' and the result's tiles at the same offset and the same row
    block, the weights' at the same offset; the channel axes whole. Decided over the 162 points. -/
theorem tiles_at : ∀ t : Fin cfg0.N, win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_2.index t (0 : Fin 3) ≤ 26 ∧ win0_2.index t (1 : Fin 3) ≤ 5 :=
  (by decide +kernel : ∀ t : Fin grid0.N, _)

/-- Every (offset, row block) pair is some point's. -/
theorem tile_of : ∀ (k : Fin 27) (b : Fin 6), ∃ t : Fin cfg0.N, win0_2.index t = ![k.val, b.val, 0] :=
  (by decide +kernel : ∀ (k : Fin 27) (b : Fin 6), ∃ t : Fin grid0.N, win0_2.index t = ![k.val, b.val, 0])

/-- A tile's entry is the staged array's entry at the tile's place. -/
theorem featTile_apply (c : Dev nD) (t : Fin cfg0.N) (y : S1x25000x48.Idx) :
    featTile m c t y = feats m c (((cfg0.win 0).blk t).view.emb y) := rfl
theorem weightTile_apply (c : Dev nD) (t : Fin cfg0.N) (y : S1x48x48.Idx) :
    weightTile m c t y = weights m c (((cfg0.win 1).blk t).view.emb y) := rfl

/-- WHAT POINT `t` WRITES BACK is tile `t` of the whole product. -/
theorem flushed_eq (c : Dev nD) (t : Fin cfg0.N) :
    (dats m 0 c).flushed 2 t = ((cfg0.win 2).blk t).view.read (Elt Ideal) (product m c) := by
  show (cfg0.win 2).cut (grid0.coords t) ((dats m 0 c).after 2 t) = _
  rw [after0_2]
  unfold out0_2
  rw [View.canon_unit_zero zero_offsets]
  simp only [View.ld_unit_zero (S := S1x25000x48) zero_offsets, View.ld_unit_zero (S := S1x48x48) zero_offsets]
  obtain ⟨e00, e01, e02, e10, e11, e12, e22, -, -⟩ := tiles_at t
  refine funext fun (j : S1x25000x48.Idx) => ?_
  obtain ⟨z, r, o, rfl⟩ : ∃ (z : Fin 1) (r : Fin 25000) (o : Fin 48), j = ix3 z r o := ⟨j 0, j 1, j 2, eq_ix3 j⟩
  show k0_pay1 (F := Ideal) (featTile m c t) (weightTile m c t) (ix3 z r o)
      = product m c (((cfg0.win 2).blk t).view.emb (ix3 z r o))
  refine (Cert.KernelIdeal.Body.stored_apply (featTile m c t) (weightTile m c t) z r o).trans ?_
  show _ = ∑ i : Fin 48,
      feats m c (ix3 ((((cfg0.win 2).blk t).view.emb (ix3 z r o)) 0) ((((cfg0.win 2).blk t).view.emb (ix3 z r o)) 1) i)
      * weights m c (ix3 ((((cfg0.win 2).blk t).view.emb (ix3 z r o)) 0) i ((((cfg0.win 2).blk t).view.emb (ix3 z r o)) 2))
  refine Finset.sum_congr rfl fun i _ => ?_
  have hz : z.val < 1 := z.isLt
  have hf : ((cfg0.win 0).blk t).view.emb (ix3 (0 : Fin 1) r i)
      = ix3 ((((cfg0.win 2).blk t).view.emb (ix3 z r o)) 0) ((((cfg0.win 2).blk t).view.emb (ix3 z r o)) 1) i := by
    funext a; apply Fin.ext
    match a with
    | ⟨0, _⟩ => show win0_0.index t (0 : Fin 3) * 1 + 1 * 0 = win0_2.index t (0 : Fin 3) * 1 + 1 * z.val; omega
    | ⟨1, _⟩ => show win0_0.index t (1 : Fin 3) * 25000 + 1 * r.val = win0_2.index t (1 : Fin 3) * 25000 + 1 * r.val; omega
    | ⟨2, _⟩ => show win0_0.index t (2 : Fin 3) * 48 + 1 * i.val = i.val; omega
  have hw : ((cfg0.win 1).blk t).view.emb (ix3 (0 : Fin 1) i o)
      = ix3 ((((cfg0.win 2).blk t).view.emb (ix3 z r o)) 0) i ((((cfg0.win 2).blk t).view.emb (ix3 z r o)) 2) := by
    funext a; apply Fin.ext
    match a with
    | ⟨0, _⟩ => show win0_1.index t (0 : Fin 3) * 1 + 1 * 0 = win0_2.index t (0 : Fin 3) * 1 + 1 * z.val; omega
    | ⟨1, _⟩ => show win0_1.index t (1 : Fin 3) * 48 + 1 * i.val = i.val; omega
    | ⟨2, _⟩ => show win0_1.index t (2 : Fin 3) * 48 + 1 * o.val = win0_2.index t (2 : Fin 3) * 48 + 1 * o.val; omega
  rw [featTile_apply, weightTile_apply, hf, hw]
  rfl

/-- An entry of the result lies in point `t`'s tile iff each coordinate lies in the tile's range on its axis. -/
theorem mem_tile (t : Fin cfg0.N) (i : S27x150000x48.Idx) :
    i ∈ ((cfg0.win 2).blk t).view.set ↔ ∀ a : Fin 3, win0_2.index t a * S1x25000x48.size a ≤ (i a).val
      ∧ (i a).val < win0_2.index t a * S1x25000x48.size a + S1x25000x48.size a := by
  show i ∈ ((View.whole main_v14).slice (win0_2.rect t)).set ↔ _
  rw [View.set_slice_whole, Rect.mem_set_unit]
  exact Iff.rfl

/-- The tiles cover the result: row `r` of offset `k` lies in the tile of offset `k` and row block `r / 25000`. -/
theorem covered (i : S27x150000x48.Idx) :
    ∃ t : Fin cfg0.N, (cfg0.win 2).flush t = true ∧ i ∈ ((cfg0.win 2).blk t).view.set := by
  have hi0 : (i 0).val < 27 := (i 0).isLt
  have hi1 : (i 1).val < 150000 := (i 1).isLt
  have hi2 : (i 2).val < 48 := (i 2).isLt
  obtain ⟨t, ht⟩ := tile_of ⟨(i 0).val, hi0⟩ ⟨(i 1).val / 25000, by omega⟩
  have q0 : win0_2.index t (0 : Fin 3) = (i 0).val := congrFun ht 0
  have q1 : win0_2.index t (1 : Fin 3) = (i 1).val / 25000 := congrFun ht 1
  have q2 : win0_2.index t (2 : Fin 3) = 0 := congrFun ht 2
  refine ⟨t, flush0_2 t, ?_⟩
  rw [mem_tile]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 25000 ≤ (i 1).val ∧ (i 1).val < win0_2.index t (1 : Fin 3) * 25000 + 25000; omega
  | ⟨2, _⟩ => show win0_2.index t (2 : Fin 3) * 48 ≤ (i 2).val ∧ (i 2).val < win0_2.index t (2 : Fin 3) * 48 + 48; omega

/-- THE RESULT ARRAY after the region: the whole per-offset product of the staged features and weights. -/
theorem array_eq (c : Dev nD) : (dats m 0 c).arrAt 2 cfg0.N = product m c :=
  (dats m 0 c).arrAt_eq_of_cover 2 (product m c) (fun t _ => flushed_eq m c t) (covered)

end Cert.KernelIdeal.Partials

end
-- ==== Proof.KernelRun.lean ====
/-
  The kernel program's run, read: the host lines before the pallas_call, the call, the host lines after it.

  Before the call the program computes the masked gathered features and the offset weights exactly as the reference
  does, and narrows both to the 16-bit format; at the ideal values the narrowing is the identity. The call leaves the
  per-offset product of the two staged arrays (KernelArray). After the call the program scatter-sums that array by
  `out_idx`, again exactly as the reference does. So the program's result is

      scatterSum out_idx (offsetProduct (gathered features in_idx mask) (offsetWeights kernel)).
-/
import proofs.«104234_j21517786153336_1_alg».proof.Proof.Gen.KernelIdeal.Frame
import proofs.«104234_j21517786153336_1_alg».proof.Proof.KernelArray
import proofs.«104234_j21517786153336_1_alg».proof.Proof.Network
import Idealize.ShloMosaic.Lib.StableHlo.Run

set_option maxRecDepth 16384

noncomputable section

namespace Cert.KernelIdeal.Run

open Idealize.ShloMosaic Idealize.ShloMosaic.TcCoe Idealize.SL.Sem Idealize.ShloMosaic.StableHlo
open Cert.KernelIdeal Cert.KernelIdeal.Gen Cert.KernelIdeal.Partials Cert.SparseConv

variable (m : (ℓ : Loc nD τ sig) → Buf (Elt Ideal) ℓ) (ρ : Dev nD → PrngReg)

set_option maxHeartbeats 2000000 in
/-- The features the call stages: the masked gathered features of the launch arguments (narrowed, which at the ideal
    values changes nothing). -/
theorem feats_eq (c : Dev nD) :
    feats m c = gathered (m ((c : Thread nD τ).loc main_arg0)) (m ((c : Thread nD τ).loc main_arg2))
      (m ((c : Thread nD τ).loc main_arg4)) := by
  show V m c main_v12 = _
  dsimp only [V, V0]
  simp only [hostOps0, hostOps0_1, hostOps0_2, List.flatten_cons, List.flatten_nil, List.append_nil, List.cons_append,
    List.nil_append]
  after_results_simp
  rfl

set_option maxHeartbeats 2000000 in
/-- The weights the call stages: the offset weights cut out of the launch kernel (narrowed likewise). -/
theorem weights_eq (c : Dev nD) :
    weights m c = offsetWeights (m ((c : Thread nD τ).loc main_arg1)) := by
  show V m c main_v13 = _
  dsimp only [V, V0]
  simp only [hostOps0, hostOps0_1, hostOps0_2, List.flatten_cons, List.flatten_nil, List.append_nil, List.cons_append,
    List.nil_append]
  after_results_simp
  rfl

set_option maxHeartbeats 2000000 in
/-- The host lines after the call, from any contents `W` in which the call's result array holds `P` and `out_idx` holds
    `idx`: the program's result is the scatter-sum of `P` by `idx`. -/
theorem tail_of (W : Valuation τ sig (Elt Ideal)) (P : FVec Ideal S27x150000x48 .f32)
    (idx : (⟨S27x150000, .i32⟩ : BufTy).Contents (Elt Ideal))
    (hP : W (Proc.devRef .tc main_v14) = P) (hidx : W (Proc.devRef .tc main_arg3) = idx) :
    StableHlo.after (hostOps1 (F := Ideal)) W (Proc.devRef .tc main_v24) = scatterSum idx P := by
  after_results_simp
  rw [hP, hidx]
  rfl

/-- The program's result buffer after the whole run. -/
theorem result_eq (c : Dev nD) :
    Pipeline.afterTail₀ cfgs (dats m) 0 (V0 m) [hostOps1] c main_v24
      = scatterSum (m ((c : Thread nD τ).loc main_arg3))
          (offsetProduct (φ₁ := .f32) (φ₂ := .f32)
            (gathered (m ((c : Thread nD τ).loc main_arg0)) (m ((c : Thread nD τ).loc main_arg2)) (m ((c : Thread nD τ).loc main_arg4)))
            (offsetWeights (m ((c : Thread nD τ).loc main_arg1)))) := by
  unfold Pipeline.afterTail₀
  refine (tail_of _ (product m c) _
    ((Pipeline.withArrays_arr spec0 launch0.win.arr_inj c _ _ 2).trans (array_eq m c))
    ((Pipeline.withArrays_of_ne _ c (V0 m c) _ main_arg3 (by decide)).trans (V_main_arg3 m c))).trans ?_
  show scatterSum _ (offsetProduct (φ₁ := .bf16) (φ₂ := .bf16) (feats m c) (weights m c)) = _
  rw [feats_eq, weights_eq]
  rfl

/-- THE RUN: every weakly fair execution of the program terminates with its result at the scatter-sum of the per-offset
    product, and its arguments as launched. -/
theorem run : θ_run defs (onTc (τ := τ) (main (F := Ideal))) ⟨m, fun _ => 0, ρ⟩ (fun r => ∀ c : Dev nD,
      r.2.mem ((c.tc : Thread nD τ).loc main_v24)
        = scatterSum (m ((c : Thread nD τ).loc main_arg3))
            (offsetProduct (φ₁ := .f32) (φ₂ := .f32)
              (gathered (m ((c : Thread nD τ).loc main_arg0)) (m ((c : Thread nD τ).loc main_arg2)) (m ((c : Thread nD τ).loc main_arg4)))
              (offsetWeights (m ((c : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v24 (Pipeline.mem_restRefs_of main_v24 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Run

end
-- ==== Proof.lean ====
/-
  A sparse 3-D convolution (27 kernel offsets, 48 → 48 channels, 150000 neighbour pairs per offset over 200000 voxels):
  the kernel program against its reference, over the extended reals.

  Both programs compute
      out = scatterSum out_idx (P),     P (k, m, o) = Σ_i gathered (k, m, i) · offsetWeights (k, i, o),
  with `gathered` the mask-selected feature rows `features[in_idx]` and `offsetWeights` the centred 3 × 3 × 3, 48 × 48
  part of the stored 5 × 5 × 5, 64 × 64 kernel. The gather, the weight slicing and the final scatter-add are the same
  host operations in both programs. They differ in the middle stage only:

    * the reference takes ONE batched product over the offset axis, contracting the 48 input channels;
    * the kernel narrows both factors to a 16-bit format, and a pallas_call on a 27 × 6 grid multiplies, per offset `k`
      and per block of 25000 pairs, a 25000 × 48 tile of gathered rows by offset `k`'s 48 × 48 weights into a zero
      accumulator, writing the tile of `P` back.

  At the ideal values a change of float format is the identity, a product into a zero accumulator is the plain sum of
  the 48 products, and an entry `P (k, m, o)` only needs row `m` of offset `k` and offset `k`'s weights — all inside
  one tile. So each tile written back is the tile of the whole product, the 162 tiles cover it, and the two middle
  stages are one function. No law of the extended reals beyond reading a finite sum index by index is used, and the
  finiteness of the inputs is never needed.

  The modules: OffsetProduct (the function `P`), BodyProduct (what one run of the body stores), KernelArray (the array
  the call leaves), Network (the three stages; the reference's product is `P`), KernelRun (the kernel program's run
  read end to end). The frames of the two kernel programs and the reference's run are the generated ones; the ideal
  pass rewrote nothing, so `preserves` has nothing to state.
-/
import proofs.«104234_j21517786153336_1_alg».proof.Defs
import proofs.«104234_j21517786153336_1_alg».proof.Proof.Gen.Kernel
import proofs.«104234_j21517786153336_1_alg».proof.Proof.Gen.Kernel.Frame
import proofs.«104234_j21517786153336_1_alg».proof.Proof.Gen.KernelIdeal
import proofs.«104234_j21517786153336_1_alg».proof.Proof.Gen.KernelIdeal.Frame
import proofs.«104234_j21517786153336_1_alg».proof.Proof.Gen.ReferenceIdeal
import proofs.«104234_j21517786153336_1_alg».proof.Proof.Gen.ReferenceIdeal.Run
import proofs.«104234_j21517786153336_1_alg».proof.Proof.Gen.ReferenceIdeal.Read
import proofs.«104234_j21517786153336_1_alg».proof.Proof.Gen.Pre_finite_inputs
import proofs.«104234_j21517786153336_1_alg».proof.Proof.Network
import proofs.«104234_j21517786153336_1_alg».proof.Proof.KernelRun
import Idealize.ShloMosaic.Adequacy
import Idealize.ShloMosaic.Init

noncomputable section

namespace Cert.Proof

open Idealize.ShloMosaic Idealize.ShloMosaic.TcCoe Idealize.SL.Sem

/-- The three programs run to the end, fault-free, with their arguments unchanged. -/
theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the ideal values: nothing was rewritten. -/
theorem preserves : Cert.preserves_Kernel_KernelIdeal := trivial

/-- Both idealized programs end with the scatter-sum, by `out_idx`, of the per-offset product of the masked gathered
    features and the offset weights of arguments that agree. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.SparseConv.reference_result,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
